-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x2048 : Shape := ⟨2, ![4096, 2048]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S4096x2048 .f32) (main_arg2 : FVec F S4096 .f32) (main_arg3 : FVec F S8192x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S8192x1024 : Shape := ⟨2, ![8192, 1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S4096x1024 : Shape := ⟨2, ![4096, 1024]⟩
abbrev S256x4096 : Shape := ⟨2, ![256, 4096]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4096x2048, .f32⟩
  | .hbm, ⟨2, _⟩ => ⟨S4096, .f32⟩
  | .hbm, ⟨3, _⟩ => ⟨S8192x1024, .f32⟩
  | .hbm, ⟨4, _⟩ => ⟨S8192x1024, .f32⟩
  | .hbm, ⟨5, _⟩ => ⟨S4096x2048, .bf16⟩
  | .hbm, ⟨6, _⟩ => ⟨S1x4096, .f32⟩
  | .hbm, ⟨7, _⟩ => ⟨S8192x1024, .f32⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4096x2048, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  slices_S4096x2048_o0_0_S4096x1024 : S4096x2048.Slices ![0, 0] S4096x1024
  slices_S4096x2048_o0_1024_S4096x1024 : S4096x2048.Slices ![0, 1024] S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2048.size a ≤ S4096x2048.size a
  hwx0_2 : ∀ i : grid0.Coords, EltTy.bits .bf16 = 32 ∨ (Rect.block (s := S4096x2048) S4096x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg3) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x2048 : Shape := ⟨2, ![4096, 2048]⟩
abbrev S4096 : Shape := ⟨1, ![4096]⟩
abbrev S8192x2048 : Shape := ⟨2, ![8192, 2048]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x2048, .f32⟩
  | .hbm, ⟨2, _⟩ => ⟨S4096, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S2048x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.SubLstmSpec.lean ====
/-
  The subtractive-gate LSTM cell, written once as a function of the five argument arrays over the
  extended reals.

  For batch row r and gate column g (4096 columns: the input, output, candidate and forget gates,
  1024 each, in that order) the pre-activation is

      a(r, g) = Σ_k h(r, k) · W(g, k)  +  Σ_k x(r, k) · W(g, 1024 + k)  +  b(g)        (k < 1024)

  — the weight matrix holds the recurrent block in its first 1024 columns and the input block in
  its last 1024 — and the gate is σ(a(r, g)) with σ(t) = 1 / (1 + e^(-t)). The new cell state at
  (r, q) is c(r, q) · f + z − i and the new hidden state is σ(cell) − o, with i, o, z, f the gates
  at columns q, 1024 + q, 2048 + q, 3072 + q.

  One law of sums is all the algebra: a sum over 2048 consecutive indices is the sum over the first
  1024 plus the sum over the last 1024. It holds in every commutative additive monoid, so on the
  extended reals it asks nothing of the summands (no finiteness).
-/
import Idealize.ShloMosaic.PureOps.Ideal
import Idealize.ShloMosaic.Lib.ValueIdx
import Mathlib.Algebra.BigOperators.Fin

noncomputable section

namespace Cert.SubLstm

open Idealize.ShloMosaic Idealize.ShloMosaic.ValueIdx

/-- Column `k` of the weight matrix's recurrent block (its first 1024 columns). -/
def recCol (k : Fin 1024) : Fin 2048 := ⟨k.val, by have := k.isLt; omega⟩

/-- Column `k` of the weight matrix's input block (its last 1024 columns). -/
def inCol (k : Fin 1024) : Fin 2048 := ⟨1024 + k.val, by have := k.isLt; omega⟩

/-- Gate column `q` of the gate block that starts at column `off`. -/
def gateCol (off : Nat) (hoff : off + 1024 ≤ 4096) (q : Fin 1024) : Fin 4096 :=
  ⟨q.val + off, by have := q.isLt; omega⟩

/-- A sum over 2048 consecutive indices splits into its two halves. -/
theorem sum_halves {M : Type} [AddCommMonoid M] (f : Fin 2048 → M) :
    ∑ k : Fin 2048, f k = (∑ k : Fin 1024, f (recCol k)) + ∑ k : Fin 1024, f (inCol k) :=
  Fin.sum_univ_add (a := 1024) (b := 1024) f

/-- The pre-activation of gate column `g` on batch row `r`: the hidden state against the recurrent
    block, the input against the input block, and the bias. -/
def preact (h x : FVec Ideal ⟨2, ![8192, 1024]⟩ .f32) (w : FVec Ideal ⟨2, ![4096, 2048]⟩ .f32)
    (b : FVec Ideal ⟨1, ![4096]⟩ .f32) (r : Fin 8192) (g : Fin 4096) : EReal :=
  ((∑ k : Fin 1024, h (ix2 r k) * w (ix2 g (recCol k))) + ∑ k : Fin 1024, x (ix2 r k) * w (ix2 g (inCol k)))
    + b (ix1 g)

/-- The gate: the logistic function of the pre-activation. -/
def gate (h x : FVec Ideal ⟨2, ![8192, 1024]⟩ .f32) (w : FVec Ideal ⟨2, ![4096, 2048]⟩ .f32)
    (b : FVec Ideal ⟨1, ![4096]⟩ .f32) (r : Fin 8192) (g : Fin 4096) : EReal :=
  Ideal.logistic (preact h x w b r g)

/-- The new cell state: old cell times forget gate, plus candidate, minus input gate. -/
def newCell (h x : FVec Ideal ⟨2, ![8192, 1024]⟩ .f32) (w : FVec Ideal ⟨2, ![4096, 2048]⟩ .f32)
    (b : FVec Ideal ⟨1, ![4096]⟩ .f32) (c : FVec Ideal ⟨2, ![8192, 1024]⟩ .f32) :
    FVec Ideal ⟨2, ![8192, 1024]⟩ .f32 := fun i =>
  c i * gate h x w b (i 0) (gateCol 3072 (by omega) (i 1)) + gate h x w b (i 0) (gateCol 2048 (by omega) (i 1))
    - gate h x w b (i 0) (gateCol 0 (by omega) (i 1))

/-- The new hidden state: the logistic function of the new cell state, minus the output gate. -/
def newHid (h x : FVec Ideal ⟨2, ![8192, 1024]⟩ .f32) (w : FVec Ideal ⟨2, ![4096, 2048]⟩ .f32)
    (b : FVec Ideal ⟨1, ![4096]⟩ .f32) (c : FVec Ideal ⟨2, ![8192, 1024]⟩ .f32) :
    FVec Ideal ⟨2, ![8192, 1024]⟩ .f32 := fun i =>
  Ideal.logistic (newCell h x w b c i) - gate h x w b (i 0) (gateCol 1024 (by omega) (i 1))

end Cert.SubLstm

end
-- ==== Proof.RefIsSpec.lean ====
/-
  The reference program computes the cell function of SubLstmSpec.

  The reference joins the hidden state and the input side by side into one 8192 × 2048 array,
  multiplies it by the transposed weight matrix (one contraction over all 2048 columns), adds the
  bias, and applies 1 / (1 + e^(-t)) spelled out in host operations. The joined array at column k
  is the hidden state for k < 1024 and the input at k − 1024 above, so the one sum over 2048
  columns splits into the hidden-state sum against the weight matrix's first 1024 columns plus the
  input sum against its last 1024: the pre-activation of the specification. The spelled-out
  quotient with the constant one is the logistic function, by that function's definition on the
  extended reals. The four gates are column blocks of the 8192 × 4096 gate array.
-/
import proofs.«112564_j8478265442721_1_alg».proof.Proof.Gen.ReferenceIdeal.Read
import proofs.«112564_j8478265442721_1_alg».proof.Proof.SubLstmSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.SubLstm

variable (x0 : FVec Ideal S8192x1024 .f32) (x1 : FVec Ideal S4096x2048 .f32) (x2 : FVec Ideal S4096 .f32)
  (x3 x4 : FVec Ideal S8192x1024 .f32)

/-! ## The joined array -/

/-- At a column of its first half the joined array is the hidden state. -/
theorem joined_rec (r : Fin 8192) (k : Fin 1024) :
    val_main_v0 (F := Ideal) x0 x3 (ix2 r (recCol k)) = x3 (ix2 r k) := by
  unfold val_main_v0
  exact concatenate_pair_apply_left 1 x3 x0 concatenates_S8192x1024_S8192x1024_S8192x2048_d1 (ix2 r (recCol k)) rfl (ix2 r k)
    (fun b => match b with
      | ⟨0, _⟩ => rfl
      | ⟨1, _⟩ => rfl)

/-- At a column of its second half the joined array is the input, 1024 columns back. -/
theorem joined_in (r : Fin 8192) (k : Fin 1024) :
    val_main_v0 (F := Ideal) x0 x3 (ix2 r (inCol k)) = x0 (ix2 r k) := by
  unfold val_main_v0
  exact concatenate_pair_apply_right 1 x3 x0 concatenates_S8192x1024_S8192x1024_S8192x2048_d1 (ix2 r (inCol k)) rfl rfl (ix2 r k)
    (fun b => match b with
      | ⟨0, _⟩ => fun _ => rfl
      | ⟨1, _⟩ => fun hne => absurd rfl hne)
    (by show k.val + 1024 = 1024 + k.val; omega)

/-! ## The pre-activation and the gate -/

/-- The reference's matrix product plus bias at (r, g) is the specification's pre-activation. -/
theorem preact_ref (r : Fin 8192) (g : Fin 4096) :
    val_main_v5 (F := Ideal) x0 x1 x2 x3 (ix2 r g) = preact x3 x0 x1 x2 r g := by
  have hl : ∀ k : Fin 2048, lidx_main_v2 (ix2 r g) k = ix2 r k := fun k => funext fun a => match a with
    | ⟨0, _⟩ => rfl
    | ⟨1, _⟩ => rfl
  have hr : ∀ k : Fin 2048, idx_main_v1 (ridx_main_v2 (ix2 r g) k) = ix2 g k := fun k => funext fun a => match a with
    | ⟨0, _⟩ => rfl
    | ⟨1, _⟩ => rfl
  have hb : idx_main_v3 (idx_main_v4 (ix2 r g)) = ix1 g := funext fun a => match a with
    | ⟨0, _⟩ => rfl
  rw [val_main_v5_apply, val_main_v2_apply, val_main_v4_apply, val_main_v3_apply, sum_halves]
  unfold preact
  simp only [hl, val_main_v1_apply, hr, hb, joined_rec, joined_in, Ideal.addf_def]

/-- The reference's gate array at (r, g) is the specification's gate. -/
theorem gate_ref (r : Fin 8192) (g : Fin 4096) :
    val_main_v11 (F := Ideal) x0 x1 x2 x3 (ix2 r g) = gate x3 x0 x1 x2 r g := by
  rw [val_main_v11_apply, val_main_v10_apply, val_main_cst_0_apply, val_main_v9_apply, val_main_v8_apply, val_main_cst_apply,
    val_main_v7_apply, val_main_v6_apply, preact_ref]
  simp only [Ideal.ofBits_def, Ideal.ofBits_one_f32, Ideal.hostDivf_def, Ideal.addf_def, Ideal.hostUnary_exp_def,
    Ideal.hostNegf_def, Ideal.negf_def]
  rfl

/-! ## The two results -/

/-- The reference's second result is the new cell state. -/
theorem cell_ref : val_main_v18 (F := Ideal) x0 x1 x2 x3 x4 = newCell x3 x0 x1 x2 x4 := by
  funext i
  obtain ⟨r, q, rfl⟩ : ∃ (r : Fin 8192) (q : Fin 1024), i = ix2 r q := ⟨i 0, i 1, eq_ix2 i⟩
  have h15 : idx_main_v15 (ix2 r q) = ix2 r (gateCol 3072 (by omega) q) := funext fun a => Fin.ext (by
    match a with
    | ⟨0, _⟩ => rfl
    | ⟨1, _⟩ => show 3072 + q.val = q.val + 3072; omega)
  have h14 : idx_main_v14 (ix2 r q) = ix2 r (gateCol 2048 (by omega) q) := funext fun a => Fin.ext (by
    match a with
    | ⟨0, _⟩ => rfl
    | ⟨1, _⟩ => show 2048 + q.val = q.val + 2048; omega)
  have h12 : idx_main_v12 (ix2 r q) = ix2 r (gateCol 0 (by omega) q) := funext fun a => Fin.ext (by
    match a with
    | ⟨0, _⟩ => rfl
    | ⟨1, _⟩ => rfl)
  rw [val_main_v18_apply, val_main_v17_apply, val_main_v16_apply, val_main_v15_apply, val_main_v14_apply, val_main_v12_apply,
    h15, h14, h12, gate_ref, gate_ref, gate_ref]
  rfl

/-- The reference's first result is the new hidden state. -/
theorem hid_ref : val_main_v25 (F := Ideal) x0 x1 x2 x3 x4 = newHid x3 x0 x1 x2 x4 := by
  funext i
  obtain ⟨r, q, rfl⟩ : ∃ (r : Fin 8192) (q : Fin 1024), i = ix2 r q := ⟨i 0, i 1, eq_ix2 i⟩
  have h13 : idx_main_v13 (ix2 r q) = ix2 r (gateCol 1024 (by omega) q) := funext fun a => Fin.ext (by
    match a with
    | ⟨0, _⟩ => rfl
    | ⟨1, _⟩ => show 1024 + q.val = q.val + 1024; omega)
  rw [val_main_v25_apply, val_main_v24_apply, val_main_v23_apply, val_main_cst_2_apply, val_main_v22_apply, val_main_v21_apply,
    val_main_cst_1_apply, val_main_v20_apply, val_main_v19_apply, val_main_v13_apply, h13, gate_ref, cell_ref]
  simp only [Ideal.ofBits_def, Ideal.ofBits_one_f32, Ideal.hostDivf_def, Ideal.addf_def, Ideal.hostUnary_exp_def,
    Ideal.hostNegf_def, Ideal.negf_def, Ideal.subf_def]
  rfl

end Cert.ReferenceIdeal.RefValue

end
-- ==== Proof.KernelGate.lean ====
/-
  One gate of the kernel's body, read at an index of the 256 × 4096 gate block.

  The body multiplies its 256 rows of hidden state against the first 1024 columns of the resident
  weight matrix and its 256 rows of input against the last 1024 columns (two products into zero
  accumulators, each contracting the operands' second axes), adds the two products and the bias row,
  and applies the logistic function. At an index (p, g) of the block this is

      σ( Σ_k H(p, k) · W(g, k)  +  Σ_k X(p, k) · W(g, 1024 + k)  +  B(0, g) )          (k < 1024)

  over the extended reals: a product into a zero accumulator is the plain sum of products, the
  narrowing of the row blocks to the product's operand format is the identity, a slice of the weight
  matrix reads the matrix at the shifted column, and the bias row is repeated down the rows.
-/
import proofs.«112564_j8478265442721_1_alg».proof.Proof.Gen.KernelIdeal.Skeleton
import proofs.«112564_j8478265442721_1_alg».proof.Proof.SubLstmSpec
import Idealize.ShloMosaic.Lib.Pipeline.Value
import Idealize.ShloMosaic.Lib.ValueIdx
import Idealize.ShloMosaic.PureOps.Ideal.Laws

noncomputable section

namespace Cert.KernelIdeal.GateValue

open Cert.KernelIdeal Cert.KernelIdeal.Gen Idealize.ShloMosaic Idealize.ShloMosaic.ValueIdx Cert.SubLstm

/-! ## The product's operand indices -/

theorem lhs_axis0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_axis1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_axis0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_axis1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- A product of a 256 × 1024 block with a 4096 × 1024 matrix over their second axes, into a zero
    accumulator, at (p, g): the sum over k of row p of the block against row g of the matrix. -/
theorem dot_at (L : FVec Ideal S256x1024 .bf16) (R : FVec Ideal S4096x1024 .bf16) (p : Fin 256) (g : Fin 4096) :
    matmul dot_S256x1024_S4096x1024_S256x4096_1_1_0_0_n_n none L R (constant S256x4096 .f32 0x00000000#32) (ix2 p g)
      = ∑ k : Fin 1024, L (ix2 p k) * R (ix2 g k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p g) ((contrEquiv1 dot_S256x1024_S4096x1024_S256x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S256x1024_S4096x1024_S256x4096_1_1_0_0_n_n.rhsIdx (ix2 p g) ((contrEquiv1 dot_S256x1024_S4096x1024_S256x4096_1_1_0_0_n_n 1024 rfl rfl).symm k) = ix2 g k := funext fun a => Fin.ext (by
    match a with
    | ⟨0, _⟩ => exact rhs_axis0 _ _
    | ⟨1, _⟩ => exact (rhs_axis1 _ _).trans hk)
  rw [el, er]

/-! ## The weight matrix's two column blocks, and the bias row -/

/-- The first 1024 columns of the weight matrix at (g, k): the matrix at the recurrent column k. -/
theorem recSlice_at (W : FVec Ideal S4096x2048 .bf16) (g : Fin 4096) (k : Fin 1024) :
    extractStridedSlice S4096x1024 ![0, 0] W slices_S4096x2048_o0_0_S4096x1024 (ix2 g k) = W (ix2 g (recCol k)) :=
  extractStridedSlice_apply ![0, 0] W slices_S4096x2048_o0_0_S4096x1024 (ix2 g k) (ix2 g (recCol k)) (fun a => match a with
    | ⟨0, _⟩ => by show g.val = 0 + g.val; omega
    | ⟨1, _⟩ => by show k.val = 0 + k.val; omega)

/-- The last 1024 columns of the weight matrix at (g, k): the matrix at the input column k. -/
theorem inSlice_at (W : FVec Ideal S4096x2048 .bf16) (g : Fin 4096) (k : Fin 1024) :
    extractStridedSlice S4096x1024 ![0, 1024] W slices_S4096x2048_o0_1024_S4096x1024 (ix2 g k) = W (ix2 g (inCol k)) :=
  extractStridedSlice_apply ![0, 1024] W slices_S4096x2048_o0_1024_S4096x1024 (ix2 g k) (ix2 g (inCol k)) (fun a => match a with
    | ⟨0, _⟩ => by show g.val = 0 + g.val; omega
    | ⟨1, _⟩ => by show 1024 + k.val = 1024 + k.val; rfl)

/-- The bias row repeated down the 256 rows, at (p, g): the row's entry g. -/
theorem biasRows_at (B : FVec Ideal S1x4096 .f32) (p : Fin 256) (g : Fin 4096) :
    broadcastTo S256x4096 B broadcasts_S1x4096_S256x4096 (ix2 p g) = B (ix2 0 g) :=
  broadcastTo_apply B broadcasts_S1x4096_S256x4096 (ix2 p g) (ix2 0 g) (fun a => match a with
    | ⟨0, _⟩ => by show 0 = if (1 : Nat) = 1 then 0 else p.val; rw [if_pos rfl]
    | ⟨1, _⟩ => by show g.val = if (4096 : Nat) = 1 then 0 else g.val; rw [if_neg (by decide)])

/-! ## The gate -/

/-- The gate the body computes at (p, g) of its block, from the row blocks `H`, `X`, the resident
    weight matrix `W` and the bias row `B`. -/
def blockGate (H X : FVec Ideal S256x1024 .f32) (W : FVec Ideal S4096x2048 .bf16) (B : FVec Ideal S1x4096 .f32)
    (p : Fin 256) (g : Fin 4096) : EReal :=
  Ideal.logistic (((∑ k : Fin 1024, H (ix2 p k) * W (ix2 g (recCol k))) + ∑ k : Fin 1024, X (ix2 p k) * W (ix2 g (inCol k)))
    + B (ix2 0 g))

/-- The body's gate payload at (p, g) is that gate. -/
theorem gatePayload_at (H X : Vec Ideal S256x1024 .f32) (W : Vec Ideal S4096x2048 .bf16) (B : Vec Ideal S1x4096 .f32)
    (p : Fin 256) (g : Fin 4096) :
    k0_pay1 (F := Ideal) H X W B (ix2 p g) = blockGate H X W B p g := by
  have e1 := dot_at (truncf .bf16 H bitsLt_bf16_f32) (extractStridedSlice S4096x1024 ![0, 0] W slices_S4096x2048_o0_0_S4096x1024) p g
  have e2 := dot_at (truncf .bf16 X bitsLt_bf16_f32) (extractStridedSlice S4096x1024 ![0, 1024] W slices_S4096x2048_o0_1024_S4096x1024) p g
  have e3 := biasRows_at B p g
  simp only [recSlice_at] at e1
  simp only [inSlice_at] at e2
  unfold k0_pay1 blockGate
  rw [shapeCast_self, shapeCast_self]
  exact congrArg Ideal.logistic (congrArg₂ (· + ·) (congrArg₂ (· + ·) e1 e2) e3)

end Cert.KernelIdeal.GateValue

end
-- ==== Proof.KernelArrays.lean ====
/-
  The kernel's two result arrays after its run are the cell function of SubLstmSpec of the
  argument arrays.

  The grid has 32 points; point t works on rows 256 t … 256 t + 255 of the batch. Its blocks of the
  hidden state, the input and the old cell state are those 256 rows of the arrays; the weight matrix
  (narrowed to the product's operand format before the run, which changes no value on the extended
  reals) and the bias (re-laid as one row of 4096) are resident whole at every point. So the gate the
  body computes at (p, g) of its block is the specification's gate at row 256 t + p, and what the
  point writes back to each result is rows 256 t … 256 t + 255 of the specification's array. Every
  row r lies in the block of point r / 256, so the 32 blocks cover each result array.
-/
import proofs.«112564_j8478265442721_1_alg».proof.Proof.Gen.KernelIdeal.Value
import proofs.«112564_j8478265442721_1_alg».proof.Proof.KernelGate
import proofs.«112564_j8478265442721_1_alg».proof.Proof.SubLstmSpec
import Idealize.ShloMosaic.Lib.StableHlo.Run
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.GateValue Cert.SubLstm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region works on -/

/-- The hidden state, the input, the weight matrix, the bias and the old cell state as the region
    finds them. The weight matrix is read in the product's operand format and the bias as its one
    row; on the extended reals both are the argument arrays themselves (`weights_eq`, `bias_eq`). -/
abbrev hidden (c : Dev nD) : FVec Ideal S8192x1024 .f32 := V m c main_arg3
abbrev input (c : Dev nD) : FVec Ideal S8192x1024 .f32 := V m c main_arg0
abbrev weights (c : Dev nD) : FVec Ideal S4096x2048 .f32 := fun i => V m c main_v0 i
abbrev bias (c : Dev nD) : FVec Ideal S4096 .f32 := fun i => V m c main_v1 (ix2 0 (i 0))
abbrev oldCell (c : Dev nD) : FVec Ideal S8192x1024 .f32 := V m c main_arg4

/-- The narrowed weight matrix is, value for value, the weight argument. -/
theorem weights_eq (c : Dev nD) : weights m c = m ((c : Thread nD τ).loc main_arg1) := by
  have e : @Eq (FVec Ideal S4096x2048 .bf16) (V m c main_v0)
      (truncf .bf16 (m ((c : Thread nD τ).loc main_arg1) : FVec Ideal S4096x2048 .f32) bitsLt_bf16_f32) := by
    dsimp only [Gen.V, Gen.hostOps0]; after_results
  funext i
  show V m c main_v0 i = _
  rw [e]
  rfl

/-- The bias row's entry g is the bias argument's entry g. -/
theorem bias_eq (c : Dev nD) : bias m c = m ((c : Thread nD τ).loc main_arg2) := by
  have e : @Eq (FVec Ideal S1x4096 .f32) (V m c main_v1)
      (shapeCast S1x4096 (m ((c : Thread nD τ).loc main_arg2) : FVec Ideal S4096 .f32) shapeCasts_S4096_S1x4096) := by
    dsimp only [Gen.V, Gen.hostOps0]; after_results; rfl
  funext i
  obtain ⟨g, rfl⟩ : ∃ g : Fin 4096, i = ix1 g := ⟨i 0, eq_ix1 i⟩
  show V m c main_v1 (ix2 0 g) = _
  rw [e]
  exact shapeCast_apply _ shapeCasts_S4096_S1x4096 (ix2 0 g) (ix1 g) (by
    rw [Shape.rowMajor_val_one, Shape.rowMajor_val_two]; show g.val = 0 * 4096 + g.val; omega)

/-! ## The blocks at a grid point -/

/-- Where the windows' blocks sit: the row-blocked windows at block row `t`, the resident ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt_points (t : Fin cfg0.N) : t.val < 32 := lt_of_lt_of_eq t.isLt N_0

/-- Row `p` of point `t`'s block is row `256 t + p` of the batch. -/
def rowOf (t : Fin cfg0.N) (p : Fin 256) : Fin 8192 :=
  ⟨t.val * 256 + p.val, by have := lt_points t; have := p.isLt; omega⟩

theorem hidden_blk (c : Dev nD) (t : Fin cfg0.N) (p : Fin 256) (k : Fin 1024) :
    iblk m c 0 t (ix2 p k) = hidden m c (ix2 (rowOf t p) k) := by
  obtain ⟨e0, e1, -⟩ := idx_facts t
  show V m c main_arg3 (((cfg0.win 0).blk t).view.emb (ix2 p k)) = V m c main_arg3 (ix2 (rowOf t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem input_blk (c : Dev nD) (t : Fin cfg0.N) (p : Fin 256) (k : Fin 1024) :
    iblk m c 1 t (ix2 p k) = input m c (ix2 (rowOf t p) k) := by
  obtain ⟨-, -, e0, e1, -⟩ := idx_facts t
  show V m c main_arg0 (((cfg0.win 1).blk t).view.emb (ix2 p k)) = V m c main_arg0 (ix2 (rowOf t p) k)
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem weights_blk (c : Dev nD) (t : Fin cfg0.N) (g : Fin 4096) (j : Fin 2048) :
    iblk m c 2 t (ix2 g j) = weights m c (ix2 g j) := by
  obtain ⟨-, -, -, -, e0, e1, -⟩ := idx_facts t
  show V m c main_v0 (((cfg0.win 2).blk t).view.emb (ix2 g j)) = V m c main_v0 (ix2 g j)
  refine congrArg _ (funext fun a => Fin.ext ?_)
  match a with
  | ⟨0, _⟩ => show win0_2.index t (0 : Fin 2) * 4096 + 1 * g.val = g.val; omega
  | ⟨1, _⟩ => show win0_2.index t (1 : Fin 2) * 2048 + 1 * j.val = j.val; omega

theorem bias_blk (c : Dev nD) (t : Fin cfg0.N) (g : Fin 4096) :
    iblk m c 3 t (ix2 0 g) = bias m c (ix1 g) := by
  obtain ⟨-, -, -, -, -, -, e0, e1, -⟩ := idx_facts t
  show V m c main_v1 (((cfg0.win 3).blk t).view.emb (ix2 0 g)) = V m c main_v1 (ix2 0 g)
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * g.val = g.val; omega

theorem oldCell_blk (c : Dev nD) (t : Fin cfg0.N) (p : Fin 256) (q : Fin 1024) :
    iblk m c 4 t (ix2 p q) = oldCell m c (ix2 (rowOf t p) q) := by
  obtain ⟨-, -, -, -, -, -, -, -, e0, e1, -⟩ := idx_facts t
  show V m c main_arg4 (((cfg0.win 4).blk t).view.emb (ix2 p q)) = V m c main_arg4 (ix2 (rowOf t p) q)
  refine congrArg _ (funext fun a => Fin.ext ?_)
  match a with
  | ⟨0, _⟩ => show win0_4.index t (0 : Fin 2) * 256 + 1 * p.val = t.val * 256 + p.val; omega
  | ⟨1, _⟩ => show win0_4.index t (1 : Fin 2) * 1024 + 1 * q.val = q.val; omega

/-- The gate the body computes at (p, g) of point `t`'s block is the specification's gate at row `256 t + p`. -/
theorem gate_blk (c : Dev nD) (t : Fin cfg0.N) (p : Fin 256) (g : Fin 4096) :
    blockGate (iblk m c 0 t) (iblk m c 1 t) (iblk m c 2 t) (iblk m c 3 t) p g
      = gate (hidden m c) (input m c) (weights m c) (bias m c) (rowOf t p) g := by
  unfold blockGate gate preact
  refine congrArg Ideal.logistic (congrArg₂ (· + ·) (congrArg₂ (· + ·)
    (Finset.sum_congr rfl fun k _ => ?_) (Finset.sum_congr rfl fun k _ => ?_)) ?_)
  · exact congrArg₂ (· * ·) (hidden_blk m c t p k) (weights_blk m c t g (recCol k))
  · exact congrArg₂ (· * ·) (input_blk m c t p k) (weights_blk m c t g (inCol k))
  · exact bias_blk m c t g

/-! ## What the body leaves in a block, over the block's gates -/

theorem hz : (![0, 0] : Fin 2 → Nat) = fun _ => 0 := funext fun a => by fin_cases a <;> rfl

/-- The new cell state the body stores at (p, q) of its block. -/
theorem cellBlock_at (C H X : Vec Ideal S256x1024 .f32) (W : Vec Ideal S4096x2048 .bf16) (B : Vec Ideal S1x4096 .f32)
    (p : Fin 256) (q : Fin 1024) :
    Value.E6 (F := Ideal) C H X W B (ix2 p q)
      = C (ix2 p q) * blockGate H X W B p (gateCol 3072 (by omega) q) + blockGate H X W B p (gateCol 2048 (by omega) q)
        - blockGate H X W B p (gateCol 0 (by omega) q) := by
  have i0 : Value.ix6_0 (ix2 p q) = ix2 p q := funext fun a => match a with
    | ⟨0, _⟩ => rfl
    | ⟨1, _⟩ => rfl
  have i1 : Value.ix6_1 (ix2 p q) = ix2 p (gateCol 3072 (by omega) q) := funext fun a => match a with
    | ⟨0, _⟩ => rfl
    | ⟨1, _⟩ => rfl
  have i2 : Value.ix6_2 (ix2 p q) = ix2 p (gateCol 2048 (by omega) q) := funext fun a => match a with
    | ⟨0, _⟩ => rfl
    | ⟨1, _⟩ => rfl
  have i3 : Value.ix6_3 (ix2 p q) = ix2 p (gateCol 0 (by omega) q) := funext fun a => match a with
    | ⟨0, _⟩ => rfl
    | ⟨1, _⟩ => rfl
  show FloatOps.subf (FloatOps.addf (FloatOps.mulf (C (Value.ix6_0 (ix2 p q))) (k0_pay1 H X W B (Value.ix6_1 (ix2 p q))))
    (k0_pay1 H X W B (Value.ix6_2 (ix2 p q)))) (k0_pay1 H X W B (Value.ix6_3 (ix2 p q))) = _
  rw [i0, i1, i2, i3, gatePayload_at, gatePayload_at, gatePayload_at]
  rfl

/-- The new hidden state the body stores at (p, q) of its block. -/
theorem hidBlock_at (C H X : Vec Ideal S256x1024 .f32) (W : Vec Ideal S4096x2048 .bf16) (B : Vec Ideal S1x4096 .f32)
    (p : Fin 256) (q : Fin 1024) :
    Value.E5 (F := Ideal) C H X W B (ix2 p q)
      = Ideal.logistic (C (ix2 p q) * blockGate H X W B p (gateCol 3072 (by omega) q) + blockGate H X W B p (gateCol 2048 (by omega) q)
        - blockGate H X W B p (gateCol 0 (by omega) q)) - blockGate H X W B p (gateCol 1024 (by omega) q) := by
  have i0 : Value.ix5_0 (ix2 p q) = ix2 p q := funext fun a => match a with
    | ⟨0, _⟩ => rfl
    | ⟨1, _⟩ => rfl
  have i1 : Value.ix5_1 (ix2 p q) = ix2 p (gateCol 3072 (by omega) q) := funext fun a => match a with
    | ⟨0, _⟩ => rfl
    | ⟨1, _⟩ => rfl
  have i2 : Value.ix5_2 (ix2 p q) = ix2 p (gateCol 2048 (by omega) q) := funext fun a => match a with
    | ⟨0, _⟩ => rfl
    | ⟨1, _⟩ => rfl
  have i3 : Value.ix5_3 (ix2 p q) = ix2 p (gateCol 0 (by omega) q) := funext fun a => match a with
    | ⟨0, _⟩ => rfl
    | ⟨1, _⟩ => rfl
  have i4 : Value.ix5_4 (ix2 p q) = ix2 p (gateCol 1024 (by omega) q) := funext fun a => match a with
    | ⟨0, _⟩ => rfl
    | ⟨1, _⟩ => rfl
  show FloatOps.subf (FloatOps.logistic (FloatOps.subf (FloatOps.addf (FloatOps.mulf (C (Value.ix5_0 (ix2 p q))) (k0_pay1 H X W B (Value.ix5_1 (ix2 p q))))
    (k0_pay1 H X W B (Value.ix5_2 (ix2 p q)))) (k0_pay1 H X W B (Value.ix5_3 (ix2 p q))))) (k0_pay1 H X W B (Value.ix5_4 (ix2 p q))) = _
  rw [i0, i1, i2, i3, i4, gatePayload_at, gatePayload_at, gatePayload_at, gatePayload_at]
  rfl

/-! ## What a point writes back -/

/-- A position (p, q) of point `t`'s result block is position (256 t + p, q) of the result array. -/
theorem hid_emb (t : Fin cfg0.N) (p : Fin 256) (q : Fin 1024) :
    ((cfg0.win 5).blk t).view.emb (ix2 p q) = ix2 (rowOf t p) q := by
  obtain ⟨-, -, -, -, -, -, -, -, -, -, e0, e1, -⟩ := idx_facts t
  refine funext fun a => Fin.ext ?_
  match a with
  | ⟨0, _⟩ => show win0_5.index t (0 : Fin 2) * 256 + 1 * p.val = t.val * 256 + p.val; omega
  | ⟨1, _⟩ => show win0_5.index t (1 : Fin 2) * 1024 + 1 * q.val = q.val; omega

theorem cell_emb (t : Fin cfg0.N) (p : Fin 256) (q : Fin 1024) :
    ((cfg0.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * q.val = q.val; omega

/-- Point `t` writes back rows 256 t … 256 t + 255 of the new cell state. -/
theorem cell_flushed (c : Dev nD) (t : Fin cfg0.N) :
    (dats m 0 c).flushed 6 t = ((cfg0.win 6).blk t).view.read (Elt Ideal)
      (newCell (hidden m c) (input m c) (weights m c) (bias m c) (oldCell m c)) := by
  rw [Value.flushed6]
  unfold out0_6
  simp only [View.ld_unit_zero (S := S256x1024) hz, View.ld_unit_zero (S := S4096x2048) hz, View.ld_unit_zero (S := S1x4096) hz]
  funext j
  obtain ⟨p, q, rfl⟩ : ∃ (p : Fin 256) (q : Fin 1024), j = ix2 p q := ⟨j 0, j 1, eq_ix2 j⟩
  show (View.canon [⟨r0_0, k0_pay2 (iblk m c 0 t) (iblk m c 1 t) (iblk m c 2 t) (iblk m c 3 t) (iblk m c 4 t)⟩] : Vec Ideal S256x1024 .f32) (ix2 p q)
    = newCell (hidden m c) (input m c) (weights m c) (bias m c) (oldCell m c) (((cfg0.win 6).blk t).view.emb (ix2 p q))
  refine (Value.canon6_eq (iblk m c 4 t) (iblk m c 0 t) (iblk m c 1 t) (iblk m c 2 t) (iblk m c 3 t) (ix2 p q)).trans ?_
  refine (cellBlock_at (iblk m c 4 t) (iblk m c 0 t) (iblk m c 1 t) (iblk m c 2 t) (iblk m c 3 t) p q).trans ?_
  rw [cell_emb, gate_blk, gate_blk, gate_blk, oldCell_blk]
  rfl

/-- Point `t` writes back rows 256 t … 256 t + 255 of the new hidden state. -/
theorem hid_flushed (c : Dev nD) (t : Fin cfg0.N) :
    (dats m 0 c).flushed 5 t = ((cfg0.win 5).blk t).view.read (Elt Ideal)
      (newHid (hidden m c) (input m c) (weights m c) (bias m c) (oldCell m c)) := by
  rw [Value.flushed5]
  unfold out0_5
  simp only [View.ld_unit_zero (S := S256x1024) hz, View.ld_unit_zero (S := S4096x2048) hz, View.ld_unit_zero (S := S1x4096) hz]
  funext j
  obtain ⟨p, q, rfl⟩ : ∃ (p : Fin 256) (q : Fin 1024), j = ix2 p q := ⟨j 0, j 1, eq_ix2 j⟩
  show (View.canon [⟨r0_0, k0_pay3 (iblk m c 0 t) (iblk m c 1 t) (iblk m c 2 t) (iblk m c 3 t) (iblk m c 4 t)⟩] : Vec Ideal S256x1024 .f32) (ix2 p q)
    = newHid (hidden m c) (input m c) (weights m c) (bias m c) (oldCell m c) (((cfg0.win 5).blk t).view.emb (ix2 p q))
  refine (Value.canon5_eq (iblk m c 4 t) (iblk m c 0 t) (iblk m c 1 t) (iblk m c 2 t) (iblk m c 3 t) (ix2 p q)).trans ?_
  refine (hidBlock_at (iblk m c 4 t) (iblk m c 0 t) (iblk m c 1 t) (iblk m c 2 t) (iblk m c 3 t) p q).trans ?_
  rw [hid_emb, gate_blk, gate_blk, gate_blk, gate_blk, oldCell_blk]
  rfl

/-! ## The blocks cover the result arrays -/

theorem mem_hid_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2_0).slice (win0_5.rect t)).set ↔ _
  rw [View.set_slice_whole, Rect.mem_set_unit]
  exact Iff.rfl

theorem mem_cell_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v2_1).slice (win0_6.rect t)).set ↔ _
  rw [View.set_slice_whole, Rect.mem_set_unit]
  exact Iff.rfl

/-- The point whose block holds batch row `r`. -/
def pointOf (r : Fin 8192) : Fin cfg0.N := ⟨r.val / 256, by rw [show cfg0.N = 32 from N_0]; have := r.isLt; omega⟩

theorem hid_cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨-, -, -, -, -, -, -, -, -, -, e0, e1, -⟩ := idx_facts (pointOf (i 0))
  have tv : (pointOf (i 0)).val = (i 0).val / 256 := rfl
  refine ⟨pointOf (i 0), flush0_5 _, ?_⟩
  rw [mem_hid_blk]
  intro a
  match a with
  | ⟨0, _⟩ => show win0_5.index (pointOf (i 0)) (0 : Fin 2) * 256 ≤ (i 0).val ∧ (i 0).val < win0_5.index (pointOf (i 0)) (0 : Fin 2) * 256 + 256; omega
  | ⟨1, _⟩ => show win0_5.index (pointOf (i 0)) (1 : Fin 2) * 1024 ≤ (i 1).val ∧ (i 1).val < win0_5.index (pointOf (i 0)) (1 : Fin 2) * 1024 + 1024; omega

theorem cell_cover (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨-, -, -, -, -, -, -, -, -, -, -, -, e0, e1⟩ := idx_facts (pointOf (i 0))
  have tv : (pointOf (i 0)).val = (i 0).val / 256 := rfl
  refine ⟨pointOf (i 0), flush0_6 _, ?_⟩
  rw [mem_cell_blk]
  intro a
  match a with
  | ⟨0, _⟩ => show win0_6.index (pointOf (i 0)) (0 : Fin 2) * 256 ≤ (i 0).val ∧ (i 0).val < win0_6.index (pointOf (i 0)) (0 : Fin 2) * 256 + 256; omega
  | ⟨1, _⟩ => show win0_6.index (pointOf (i 0)) (1 : Fin 2) * 1024 ≤ (i 1).val ∧ (i 1).val < win0_6.index (pointOf (i 0)) (1 : Fin 2) * 1024 + 1024; omega

/-! ## The result arrays, and the run -/

theorem hid_final (c : Dev nD) : (dats m 0 c).arrAt 5 cfg0.N
    = newHid (m ((c : Thread nD τ).loc main_arg3)) (m ((c : Thread nD τ).loc main_arg0)) (m ((c : Thread nD τ).loc main_arg1))
        (m ((c : Thread nD τ).loc main_arg2)) (m ((c : Thread nD τ).loc main_arg4)) := by
  rw [← V_main_arg3 m c, ← V_main_arg0 m c, ← V_main_arg4 m c, ← weights_eq m c, ← bias_eq m c]
  exact (dats m 0 c).arrAt_eq_of_cover 5 _ (fun t _ => hid_flushed m c t) hid_cover

theorem cell_final (c : Dev nD) : (dats m 0 c).arrAt 6 cfg0.N
    = newCell (m ((c : Thread nD τ).loc main_arg3)) (m ((c : Thread nD τ).loc main_arg0)) (m ((c : Thread nD τ).loc main_arg1))
        (m ((c : Thread nD τ).loc main_arg2)) (m ((c : Thread nD τ).loc main_arg4)) := by
  rw [← V_main_arg3 m c, ← V_main_arg0 m c, ← V_main_arg4 m c, ← weights_eq m c, ← bias_eq m c]
  exact (dats m 0 c).arrAt_eq_of_cover 6 _ (fun t _ => cell_flushed m c t) cell_cover

/-- Every weakly fair execution of the kernel program ends with its first result at the new hidden
    state and its second at the new cell state of the argument arrays, the arguments unchanged. -/
theorem run : θ_run defs (onTc (τ := τ) (main (F := Ideal))) ⟨m, fun _ => 0, ρ⟩ fun r => ∀ c : Dev nD,
      r.2.mem ((c : Thread nD τ).loc main_v2_0)
        = newHid (m ((c : Thread nD τ).loc main_arg3)) (m ((c : Thread nD τ).loc main_arg0)) (m ((c : Thread nD τ).loc main_arg1))
            (m ((c : Thread nD τ).loc main_arg2)) (m ((c : Thread nD τ).loc main_arg4))
      ∧ r.2.mem ((c : Thread nD τ).loc main_v2_1)
        = newCell (m ((c : Thread nD τ).loc main_arg3)) (m ((c : Thread nD τ).loc main_arg0)) (m ((c : Thread nD τ).loc main_arg1))
            (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (hid_final m c), (h c).2.1.trans (cell_final m c), (h c).2.2⟩)
    (Value.run_blocks m ρ)

end Cert.KernelIdeal.CellValue

end
-- ==== Proof.lean ====
/-
  A fused subtractive-gate LSTM cell against its plain reference, over the extended reals.

  Both programs compute, for batch row r and column q < 1024,

      a(r, g)    = Σ_k h(r, k) · W(g, k) + Σ_k x(r, k) · W(g, 1024 + k) + b(g)      (g < 4096, k < 1024)
      i, o, z, f = σ(a(r, q)), σ(a(r, 1024 + q)), σ(a(r, 2048 + q)), σ(a(r, 3072 + q))
      cell(r, q) = c(r, q) · f + z − i
      hid(r, q)  = σ(cell(r, q)) − o                                               σ(t) = 1 / (1 + e^(-t))

  The kernel walks the batch in 32 blocks of 256 rows with the weight matrix resident, forms the two
  matrix products separately (hidden state against the weight matrix's first 1024 columns, input
  against its last 1024) and uses the logistic operation; the reference joins hidden state and input
  into one 8192 × 2048 array, contracts it once against the transposed weight matrix, and spells the
  logistic function out as a quotient. They meet in one law: a sum over 2048 columns is the sum over
  its first half plus the sum over its second half. That law holds in any commutative additive
  monoid, so the precondition (finite inputs) is never opened. The narrowing of the matrix product's
  operands to a shorter float format is the identity on the extended reals, so the idealized kernel
  is the kernel's own text and nothing is owed for the idealization.

  SubLstmSpec states the cell function; RefIsSpec shows the reference computes it; KernelGate reads
  the body's gate at an index of its block; KernelArrays carries that from the 32 blocks to the two
  result arrays.
-/
import proofs.«112564_j8478265442721_1_alg».proof.Defs
import proofs.«112564_j8478265442721_1_alg».proof.Proof.Gen.Kernel
import proofs.«112564_j8478265442721_1_alg».proof.Proof.Gen.Kernel.Skeleton
import proofs.«112564_j8478265442721_1_alg».proof.Proof.Gen.Kernel.Launch
import proofs.«112564_j8478265442721_1_alg».proof.Proof.Gen.Kernel.Points
import proofs.«112564_j8478265442721_1_alg».proof.Proof.Gen.Kernel.Frame
import proofs.«112564_j8478265442721_1_alg».proof.Proof.Gen.KernelIdeal
import proofs.«112564_j8478265442721_1_alg».proof.Proof.Gen.KernelIdeal.Skeleton
import proofs.«112564_j8478265442721_1_alg».proof.Proof.Gen.KernelIdeal.Launch
import proofs.«112564_j8478265442721_1_alg».proof.Proof.Gen.KernelIdeal.Points
import proofs.«112564_j8478265442721_1_alg».proof.Proof.Gen.KernelIdeal.Frame
import proofs.«112564_j8478265442721_1_alg».proof.Proof.Gen.ReferenceIdeal
import proofs.«112564_j8478265442721_1_alg».proof.Proof.Gen.Pre_finite_inputs
import proofs.«112564_j8478265442721_1_alg».proof.Proof.Gen.KernelIdeal.Value
import proofs.«112564_j8478265442721_1_alg».proof.Proof.Gen.ReferenceIdeal.Run
import proofs.«112564_j8478265442721_1_alg».proof.Proof.Gen.ReferenceIdeal.Read
import proofs.«112564_j8478265442721_1_alg».proof.Proof.SubLstmSpec
import proofs.«112564_j8478265442721_1_alg».proof.Proof.RefIsSpec
import proofs.«112564_j8478265442721_1_alg».proof.Proof.KernelArrays
import Idealize.ShloMosaic.Adequacy
import Idealize.ShloMosaic.Init

noncomputable section

namespace Cert.Proof

open Idealize.ShloMosaic Idealize.SL.Sem Cert.SubLstm

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the new hidden state and
    the new cell state of those arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v25_eq (F := Ideal) _ _ _ _ _).trans ?_
    rw [Cert.ReferenceIdeal.RefValue.hid_ref, (hagree c).1, (hagree c).2.1, (hagree c).2.2.1, (hagree c).2.2.2.1, (hagree c).2.2.2.2]
  · refine (Cert.ReferenceIdeal.Read.val_main_v18_eq (F := Ideal) _ _ _ _ _).trans ?_
    rw [Cert.ReferenceIdeal.RefValue.cell_ref, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
